-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 37
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S16384x1024, .f32⟩
  | .hbm, ⟨36, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1024.size a ≤ S1x1024.size a
  hwx0_18 : ∀ i : grid0.Coords, EltTy.bits .f32 = 32 ∨ (Rect.block (s := S1x1024) S1x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1024.size a ≤ S16384x1024.size a
  hwx0_19 : ∀ i : grid0.Coords, EltTy.bits .f32 = 32 ∨ (Rect.block (s := S16384x1024) S256x1024.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x1024.size a ≤ S16384x1024.size a
  hwx0_20 : ∀ i : grid0.Coords, EltTy.bits .f32 = 32 ∨ (Rect.block (s := S16384x1024) S256x1024.size (cc0_transform_20 i) (hinb0_20 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15) S1x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v16_0) S256x1024.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v16_1) S256x1024.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S1024x1024, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S1024x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1024x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S1024x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1024x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.CellSpec.lean ====
/-
  One step of an LSTM cell over the extended reals, entry by entry.

  For a batch row `i` and a hidden unit `j`, each gate's pre-activation is the sum of two affine maps,
  one of the input row and one of the previous hidden row:
      gate(W, bW, U, bU)(i, j) = (∑ₖ x[i,k] · W[j,k] + bW[j]) + (∑ₖ h[i,k] · U[j,k] + bU[j]).
  The input, forget and output gates pass it through the logistic function; the candidate does not. Then
      C'[i,j] = σ(forget) · c[i,j] + σ(input) · candidate,      H'[i,j] = σ(output) · tanh C'[i,j].
  The weights are stored one output unit per ROW (`W[j,k]`), so each product is a row against a row and no
  transpose appears. The only law used between the two groupings of a pre-activation's four terms is
  associativity of addition, which holds on all of the extended reals; nothing here needs the entries finite.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- The batch arrays, the square weight matrices, the bias vectors. -/
abbrev SB : Shape := ⟨2, ![16384, 1024]⟩
abbrev SW : Shape := ⟨2, ![1024, 1024]⟩
abbrev SV : Shape := ⟨1, ![1024]⟩

/-- Row `i` of a matrix with 1024 columns, as a function of the column. -/
def row {n : Nat} (a : (⟨2, ![n, 1024]⟩ : Shape).Idx → EReal) (i : Fin n) : Fin 1024 → EReal := fun k => a (ix2 i k)

/-- The inner product of two rows. -/
def rowDot (a b : Fin 1024 → EReal) : EReal := ∑ k : Fin 1024, a k * b k

/-- A gate's pre-activation: the input row's affine map plus the hidden row's affine map. -/
def gateSum (x h w u : Fin 1024 → EReal) (bw bu : EReal) : EReal := (rowDot x w + bw) + (rowDot h u + bu)

/-- The same four terms summed left to right. -/
theorem gateSum_of_left (x h w u : Fin 1024 → EReal) (bw bu : EReal) :
    ((rowDot x w + bw) + rowDot h u) + bu = gateSum x h w u bw bu := add_assoc _ _ _

/-- The new cell state at one entry: forget gate times the old state plus input gate times the candidate. -/
def cellNext (x h : Fin 1024 → EReal) (c : EReal)
    (wi ui : Fin 1024 → EReal) (bwi bui : EReal) (wf uf : Fin 1024 → EReal) (bwf buf : EReal)
    (wc uc : Fin 1024 → EReal) (bwc buc : EReal) : EReal :=
  Ideal.logistic (gateSum x h wf uf bwf buf) * c + Ideal.logistic (gateSum x h wi ui bwi bui) * gateSum x h wc uc bwc buc

/-- The new hidden state at one entry: output gate times `tanh` of the new cell state. -/
def hiddenNext (x h : Fin 1024 → EReal) (c : EReal)
    (wi ui : Fin 1024 → EReal) (bwi bui : EReal) (wo uo : Fin 1024 → EReal) (bwo buo : EReal)
    (wf uf : Fin 1024 → EReal) (bwf buf : EReal) (wc uc : Fin 1024 → EReal) (bwc buc : EReal) : EReal :=
  Ideal.logistic (gateSum x h wo uo bwo buo) * Ideal.tanh (cellNext x h c wi ui bwi bui wf uf bwf buf wc uc bwc buc)

/-- The new cell state as one array of the nineteen arguments, in the entry point's order:
    `x, h, c, W_i, b_W_i, W_o, b_W_o, W_f, b_W_f, W_c, b_W_c, U_i, b_U_i, U_o, b_U_o, U_f, b_U_f, U_c, b_U_c`
    (the output gate's four do not enter it). -/
def cellArr (x h c : SB.Idx → EReal) (Wi : SW.Idx → EReal) (bWi : SV.Idx → EReal) (Wf : SW.Idx → EReal) (bWf : SV.Idx → EReal)
    (Wc : SW.Idx → EReal) (bWc : SV.Idx → EReal) (Ui : SW.Idx → EReal) (bUi : SV.Idx → EReal)
    (Uf : SW.Idx → EReal) (bUf : SV.Idx → EReal) (Uc : SW.Idx → EReal) (bUc : SV.Idx → EReal) : SB.Idx → EReal :=
  fun y => cellNext (row x (y 0)) (row h (y 0)) (c y)
    (row Wi (y 1)) (row Ui (y 1)) (bWi (ix1 (y 1))) (bUi (ix1 (y 1)))
    (row Wf (y 1)) (row Uf (y 1)) (bWf (ix1 (y 1))) (bUf (ix1 (y 1)))
    (row Wc (y 1)) (row Uc (y 1)) (bWc (ix1 (y 1))) (bUc (ix1 (y 1)))

/-- The new hidden state as one array of the nineteen arguments. -/
def hiddenArr (x h c : SB.Idx → EReal) (Wi : SW.Idx → EReal) (bWi : SV.Idx → EReal) (Wo : SW.Idx → EReal) (bWo : SV.Idx → EReal)
    (Wf : SW.Idx → EReal) (bWf : SV.Idx → EReal) (Wc : SW.Idx → EReal) (bWc : SV.Idx → EReal)
    (Ui : SW.Idx → EReal) (bUi : SV.Idx → EReal) (Uo : SW.Idx → EReal) (bUo : SV.Idx → EReal)
    (Uf : SW.Idx → EReal) (bUf : SV.Idx → EReal) (Uc : SW.Idx → EReal) (bUc : SV.Idx → EReal) : SB.Idx → EReal :=
  fun y => hiddenNext (row x (y 0)) (row h (y 0)) (c y)
    (row Wi (y 1)) (row Ui (y 1)) (bWi (ix1 (y 1))) (bUi (ix1 (y 1)))
    (row Wo (y 1)) (row Uo (y 1)) (bWo (ix1 (y 1))) (bUo (ix1 (y 1)))
    (row Wf (y 1)) (row Uf (y 1)) (bWf (ix1 (y 1))) (bUf (ix1 (y 1)))
    (row Wc (y 1)) (row Uc (y 1)) (bWc (ix1 (y 1))) (bUc (ix1 (y 1)))

/-- The new cell state depends on its fifteen arguments only through their values. -/
theorem cellArr_congr {x x' h h' c c' : SB.Idx → EReal} {Wi Wi' : SW.Idx → EReal} {bWi bWi' : SV.Idx → EReal}
    {Wf Wf' : SW.Idx → EReal} {bWf bWf' : SV.Idx → EReal} {Wc Wc' : SW.Idx → EReal} {bWc bWc' : SV.Idx → EReal}
    {Ui Ui' : SW.Idx → EReal} {bUi bUi' : SV.Idx → EReal} {Uf Uf' : SW.Idx → EReal} {bUf bUf' : SV.Idx → EReal}
    {Uc Uc' : SW.Idx → EReal} {bUc bUc' : SV.Idx → EReal}
    (e0 : x = x') (e1 : h = h') (e2 : c = c') (e3 : Wi = Wi') (e4 : bWi = bWi') (e7 : Wf = Wf') (e8 : bWf = bWf')
    (e9 : Wc = Wc') (e10 : bWc = bWc') (e11 : Ui = Ui') (e12 : bUi = bUi') (e15 : Uf = Uf') (e16 : bUf = bUf')
    (e17 : Uc = Uc') (e18 : bUc = bUc') :
    cellArr x h c Wi bWi Wf bWf Wc bWc Ui bUi Uf bUf Uc bUc = cellArr x' h' c' Wi' bWi' Wf' bWf' Wc' bWc' Ui' bUi' Uf' bUf' Uc' bUc' := by
  subst e0 e1 e2 e3 e4 e7 e8 e9 e10 e11 e12 e15 e16 e17 e18
  rfl

/-- The new hidden state depends on its nineteen arguments only through their values. -/
theorem hiddenArr_congr {x x' h h' c c' : SB.Idx → EReal} {Wi Wi' : SW.Idx → EReal} {bWi bWi' : SV.Idx → EReal}
    {Wo Wo' : SW.Idx → EReal} {bWo bWo' : SV.Idx → EReal}
    {Wf Wf' : SW.Idx → EReal} {bWf bWf' : SV.Idx → EReal} {Wc Wc' : SW.Idx → EReal} {bWc bWc' : SV.Idx → EReal}
    {Ui Ui' : SW.Idx → EReal} {bUi bUi' : SV.Idx → EReal} {Uo Uo' : SW.Idx → EReal} {bUo bUo' : SV.Idx → EReal}
    {Uf Uf' : SW.Idx → EReal} {bUf bUf' : SV.Idx → EReal} {Uc Uc' : SW.Idx → EReal} {bUc bUc' : SV.Idx → EReal}
    (e0 : x = x') (e1 : h = h') (e2 : c = c') (e3 : Wi = Wi') (e4 : bWi = bWi') (e5 : Wo = Wo') (e6 : bWo = bWo')
    (e7 : Wf = Wf') (e8 : bWf = bWf') (e9 : Wc = Wc') (e10 : bWc = bWc') (e11 : Ui = Ui') (e12 : bUi = bUi')
    (e13 : Uo = Uo') (e14 : bUo = bUo') (e15 : Uf = Uf') (e16 : bUf = bUf') (e17 : Uc = Uc') (e18 : bUc = bUc') :
    hiddenArr x h c Wi bWi Wo bWo Wf bWf Wc bWc Ui bUi Uo bUo Uf bUf Uc bUc
      = hiddenArr x' h' c' Wi' bWi' Wo' bWo' Wf' bWf' Wc' bWc' Ui' bUi' Uo' bUo' Uf' bUf' Uc' bUc' := by
  subst e0 e1 e2 e3 e4 e5 e6 e7 e8 e9 e10 e11 e12 e13 e14 e15 e16 e17 e18
  rfl

/-- The f32 pattern of `1.0` denotes the extended real `1`. -/
theorem ofBits_one_f32 : Ideal.ofBits .f32 0x3F800000#32 = 1 := IdealRules.sign_bit.ideal_onePat .f32

/-- The logistic function written out with the pattern of `1.0` in both places, as a reference that expands
    `jax.nn.sigmoid` computes it: one over one plus `e` to the minus. -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.LstmCell

end
-- ==== Proof.KernelCell.lean ====
/-
  The kernel body's arithmetic, read at one entry of the 256 × 1024 block, over the extended reals.

  The body multiplies the block's 256 input rows (and 256 hidden rows) against each weight matrix with the
  contraction on the LAST axis of both operands, so entry (p, q) of a product is the inner product of row p of
  the activations with row q of the weights. A bias block has one row, broadcast down the 256 rows. A change
  of float format is the identity on the extended reals, so the narrowed operands are the loaded ones. With
  these three readings every payload is, entry by entry, the gate arithmetic of the cell's specification.
-/
import proofs.«173574_j9663676416791_1_alg».proof.Proof.Gen.KernelIdeal.Skeleton
import proofs.«173574_j9663676416791_1_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellValue

open Cert.KernelIdeal Cert.KernelIdeal.Gen Idealize.ShloMosaic Idealize.ShloMosaic.ValueIdx Cert.LstmCell

/-! ## The product's operand indices, axis by axis -/

theorem lhs_axis0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_axis1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_axis0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_axis1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-! ## The three readings -/

/-- Entry (p, q) of the product into a zero accumulator: row p of the left operand against row q of the right. -/
theorem matmul_rows (a : FVec Ideal S256x1024 .bf16) (w : FVec Ideal S1024x1024 .bf16) (p : Fin 256) (q : Fin 1024) :
    matmul dot_S256x1024_S1024x1024_S256x1024_1_1_0_0_n_n none a w (constant S256x1024 .f32 0x00000000#32) (ix2 p q)
      = rowDot (row a p) (row w q) := by
  simp only [matmul]
  rw [Ideal.matmul_constant_zero_apply, ← Equiv.sum_comp (contrEquiv1 dot_S256x1024_S1024x1024_S256x1024_1_1_0_0_n_n 1024 rfl rfl).symm]
  unfold rowDot row
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- A one-row bias block broadcast down the rows: entry (p, q) is the bias at column q. -/
theorem bias_rows (b : FVec Ideal S1x1024 .f32) (p : Fin 256) (q : Fin 1024) :
    broadcastTo S256x1024 b broadcasts_S1x1024_S256x1024 (ix2 p q) = b (ix2 (0 : Fin 1) q) :=
  broadcastTo_1b_ab_apply b broadcasts_S1x1024_S256x1024 p q

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

/-- One gate's pre-activation as the body spells it — the input rows' product plus its bias, plus the hidden
    rows' product plus its bias — read at an entry. -/
theorem gate_entry (a b : FVec Ideal S256x1024 .bf16) (w u : FVec Ideal S1024x1024 .bf16) (bw bu : FVec Ideal S1x1024 .f32)
    (p : Fin 256) (q : Fin 1024) :
    addf (addf (matmul dot_S256x1024_S1024x1024_S256x1024_1_1_0_0_n_n none a (shapeCast S1024x1024 w shapeCasts_S1024x1024_S1024x1024) (constant S256x1024 .f32 0x00000000#32))
        (broadcastTo S256x1024 (shapeCast S1x1024 bw shapeCasts_S1x1024_S1x1024) broadcasts_S1x1024_S256x1024))
      (addf (matmul dot_S256x1024_S1024x1024_S256x1024_1_1_0_0_n_n none b (shapeCast S1024x1024 u shapeCasts_S1024x1024_S1024x1024) (constant S256x1024 .f32 0x00000000#32))
        (broadcastTo S256x1024 (shapeCast S1x1024 bu shapeCasts_S1x1024_S1x1024) broadcasts_S1x1024_S256x1024)) (ix2 p q)
      = gateSum (row a p) (row b p) (row w q) (row u q) (bw (ix2 (0 : Fin 1) q)) (bu (ix2 (0 : Fin 1) q)) := by
  rw [addf_apply, addf_apply, addf_apply]
  simp only [shapeCast_self]
  exact congrArg₂ (· + ·) (congrArg₂ (· + ·) (matmul_rows a w p q) (bias_rows bw p q))
    (congrArg₂ (· + ·) (matmul_rows b u p q) (bias_rows bu p q))

/-! ## The payloads -/

/-- The input gate. -/
theorem pay3_entry (x h : FVec Ideal S256x1024 .f32) (w : FVec Ideal S1024x1024 .bf16) (bw : FVec Ideal S1x1024 .f32)
    (u : FVec Ideal S1024x1024 .bf16) (bu : FVec Ideal S1x1024 .f32) (p : Fin 256) (q : Fin 1024) :
    k0_pay3 (F := Ideal) x h w bw u bu (ix2 p q)
      = Ideal.logistic (gateSum (row x p) (row h p) (row w q) (row u q) (bw (ix2 (0 : Fin 1) q)) (bu (ix2 (0 : Fin 1) q))) := by
  unfold k0_pay3
  rw [logistic_at]
  exact congrArg Ideal.logistic (gate_entry _ _ w u bw bu p q)

/-- The input rows' half of the output gate. -/
theorem pay4_entry (x : FVec Ideal S256x1024 .f32) (w : FVec Ideal S1024x1024 .bf16) (bw : FVec Ideal S1x1024 .f32)
    (p : Fin 256) (q : Fin 1024) :
    k0_pay4 (F := Ideal) x w bw (ix2 p q) = rowDot (row x p) (row w q) + bw (ix2 (0 : Fin 1) q) := by
  unfold k0_pay4
  rw [addf_apply]
  simp only [shapeCast_self]
  exact congrArg₂ (· + ·) (matmul_rows _ w p q) (bias_rows bw p q)

/-- The hidden rows' product of the output gate. -/
theorem pay5_entry (h : FVec Ideal S256x1024 .f32) (u : FVec Ideal S1024x1024 .bf16) (p : Fin 256) (q : Fin 1024) :
    k0_pay5 (F := Ideal) h u (ix2 p q) = rowDot (row h p) (row u q) := by
  unfold k0_pay5
  simp only [shapeCast_self]
  exact matmul_rows _ u p q

/-- The new cell state: forget gate times the old state plus the input gate (handed in as `g`) times the candidate. -/
theorem pay7_entry (a b : FVec Ideal S256x1024 .bf16) (c g : FVec Ideal S256x1024 .f32)
    (wf : FVec Ideal S1024x1024 .bf16) (bwf : FVec Ideal S1x1024 .f32) (uf : FVec Ideal S1024x1024 .bf16) (buf : FVec Ideal S1x1024 .f32)
    (wc : FVec Ideal S1024x1024 .bf16) (bwc : FVec Ideal S1x1024 .f32) (uc : FVec Ideal S1024x1024 .bf16) (buc : FVec Ideal S1x1024 .f32)
    (p : Fin 256) (q : Fin 1024) :
    k0_pay7 (F := Ideal) a b c g wf bwf uf buf wc bwc uc buc (ix2 p q)
      = Ideal.logistic (gateSum (row a p) (row b p) (row wf q) (row uf q) (bwf (ix2 (0 : Fin 1) q)) (buf (ix2 (0 : Fin 1) q))) * c (ix2 p q)
        + g (ix2 p q) * gateSum (row a p) (row b p) (row wc q) (row uc q) (bwc (ix2 (0 : Fin 1) q)) (buc (ix2 (0 : Fin 1) q)) := by
  unfold k0_pay7
  rw [addf_apply, mulf_apply, mulf_apply, logistic_at, gate_entry, gate_entry]

/-- The new hidden state: the output gate — its two halves handed in as `o1` (input rows' product plus bias),
    `o2` (hidden rows' product) and the hidden bias row `bo` — times `tanh` of the new cell state. -/
theorem pay8_entry (a b : FVec Ideal S256x1024 .bf16) (c g o1 o2 : FVec Ideal S256x1024 .f32) (bo : FVec Ideal S1x1024 .f32)
    (wf : FVec Ideal S1024x1024 .bf16) (bwf : FVec Ideal S1x1024 .f32) (uf : FVec Ideal S1024x1024 .bf16) (buf : FVec Ideal S1x1024 .f32)
    (wc : FVec Ideal S1024x1024 .bf16) (bwc : FVec Ideal S1x1024 .f32) (uc : FVec Ideal S1024x1024 .bf16) (buc : FVec Ideal S1x1024 .f32)
    (p : Fin 256) (q : Fin 1024) :
    k0_pay8 (F := Ideal) a b c g o1 o2 bo wf bwf uf buf wc bwc uc buc (ix2 p q)
      = Ideal.logistic (o1 (ix2 p q) + (o2 (ix2 p q) + bo (ix2 (0 : Fin 1) q)))
        * Ideal.tanh (k0_pay7 (F := Ideal) a b c g wf bwf uf buf wc bwc uc buc (ix2 p q)) := by
  unfold k0_pay8
  rw [mulf_apply, logistic_at, tanh_at, addf_apply, addf_apply, bias_rows]

end Cert.KernelIdeal.CellValue

end
-- ==== Proof.KernelBlock.lean ====
/-
  What the body leaves in its two output buffers, entry by entry, over the nineteen input blocks as variables.

  The body loads every block whole and stores each result whole, so an output buffer holds exactly its one
  store's payload. The operands arrive in the call's order: the three batch blocks `x0 x1 x2` (input rows, hidden
  rows, old cell state), the four input-side weight matrices `x3 … x6` (input, output, forget, candidate), the
  four hidden-side ones `x7 … x10`, then their bias rows `x11 … x14` and `x15 … x18` in the same gate order.
-/
import proofs.«173574_j9663676416791_1_alg».proof.Proof.Gen.KernelIdeal.Frame
import proofs.«173574_j9663676416791_1_alg».proof.Proof.KernelCell

noncomputable section

namespace Cert.KernelIdeal.CellValue

open Cert.KernelIdeal Cert.KernelIdeal.Gen Idealize.ShloMosaic Idealize.ShloMosaic.ValueIdx Cert.LstmCell

theorem zero_offsets : (![0, 0] : Fin 2 → Nat) = fun _ => 0 := funext fun a => by fin_cases a <;> rfl

/-- A bias row re-cast to its own shape is itself. -/
theorem pay6_eq (b : FVec Ideal S1x1024 .f32) : k0_pay6 (F := Ideal) b = b := by
  unfold k0_pay6
  exact shapeCast_self _ _

/-- The cell-state output's buffer at entry (p, q): the specification's new cell state of the blocks' rows. -/
theorem out_cell (x0 x1 x2 : Vec Ideal S256x1024 .f32) (x3 x4 x5 x6 x7 x8 x9 x10 : Vec Ideal S1024x1024 .bf16)
    (x11 x12 x13 x14 x15 x16 x17 x18 : Vec Ideal S1x1024 .f32) (p : Fin 256) (q : Fin 1024) :
    out0_20 (F := Ideal) x0 x1 x2 x3 x4 x5 x6 x7 x8 x9 x10 x11 x12 x13 x14 x15 x16 x17 x18 (ix2 p q)
      = cellNext (row x0 p) (row x1 p) (x2 (ix2 p q))
          (row x3 q) (row x7 q) (x11 (ix2 (0 : Fin 1) q)) (x15 (ix2 (0 : Fin 1) q))
          (row x5 q) (row x9 q) (x13 (ix2 (0 : Fin 1) q)) (x17 (ix2 (0 : Fin 1) q))
          (row x6 q) (row x10 q) (x14 (ix2 (0 : Fin 1) q)) (x18 (ix2 (0 : Fin 1) q)) := by
  unfold out0_20
  rw [View.canon_unit_zero zero_offsets]
  simp only [View.ld_unit_zero (S := S256x1024) zero_offsets, View.ld_unit_zero (S := S1024x1024) zero_offsets,
    View.ld_unit_zero (S := S1x1024) zero_offsets]
  rw [pay7_entry, pay3_entry]
  rfl

/-- The hidden-state output's buffer at entry (p, q): the specification's new hidden state of the blocks' rows. -/
theorem out_hidden (x0 x1 x2 : Vec Ideal S256x1024 .f32) (x3 x4 x5 x6 x7 x8 x9 x10 : Vec Ideal S1024x1024 .bf16)
    (x11 x12 x13 x14 x15 x16 x17 x18 : Vec Ideal S1x1024 .f32) (p : Fin 256) (q : Fin 1024) :
    out0_19 (F := Ideal) x0 x1 x2 x3 x4 x5 x6 x7 x8 x9 x10 x11 x12 x13 x14 x15 x16 x17 x18 (ix2 p q)
      = hiddenNext (row x0 p) (row x1 p) (x2 (ix2 p q))
          (row x3 q) (row x7 q) (x11 (ix2 (0 : Fin 1) q)) (x15 (ix2 (0 : Fin 1) q))
          (row x4 q) (row x8 q) (x12 (ix2 (0 : Fin 1) q)) (x16 (ix2 (0 : Fin 1) q))
          (row x5 q) (row x9 q) (x13 (ix2 (0 : Fin 1) q)) (x17 (ix2 (0 : Fin 1) q))
          (row x6 q) (row x10 q) (x14 (ix2 (0 : Fin 1) q)) (x18 (ix2 (0 : Fin 1) q)) := by
  unfold out0_19
  rw [View.canon_unit_zero zero_offsets]
  simp only [View.ld_unit_zero (S := S256x1024) zero_offsets, View.ld_unit_zero (S := S1024x1024) zero_offsets,
    View.ld_unit_zero (S := S1x1024) zero_offsets]
  rw [pay8_entry, pay7_entry, pay3_entry, pay4_entry, pay5_entry, pay6_eq]
  rfl

end Cert.KernelIdeal.CellValue

end
-- ==== Proof.KernelArray.lean ====
/-
  From the blocks to the whole arrays: what the kernel's two result arrays hold after the run.

  The grid has 64 points; point `t` works on rows 256·t … 256·t + 255 of the three batch arrays and writes the
  same rows of the two results, all 1024 columns. Every weight matrix and every bias row is one block, the same
  at every point. Before the call the program narrows the eight weight matrices (the identity on the extended
  reals) and re-casts each bias vector of length 1024 as one row. So block `t` of each result is the
  specification's array read through that block, the 64 blocks tile the 16384 rows, and the result arrays are
  the specification's arrays of the nineteen arguments.
-/
import proofs.«173574_j9663676416791_1_alg».proof.Proof.Gen.KernelIdeal.Value
import proofs.«173574_j9663676416791_1_alg».proof.Proof.KernelBlock
import Idealize.ShloMosaic.Lib.StableHlo.Run
import Idealize.ShloMosaic.Lib.ValueLayout

noncomputable section

namespace Cert.KernelIdeal.CellValue

open Cert.KernelIdeal Cert.KernelIdeal.Gen Idealize.ShloMosaic Idealize.ShloMosaic.TcCoe Idealize.SL.Sem
open Idealize.ShloMosaic.ValueIdx Cert.LstmCell
open Idealize.ShloMosaic.Pipeline (Dat)

variable (m : (ℓ : Loc nD τ sig) → Buf (Elt Ideal) ℓ)

/-! ## Where each window's block sits in its array

Decided over the 64 points: a batch window's block index is (t, 0); every other window's is (0, 0). -/

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = t.val ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_19 : ∀ t : Fin cfg0.N, win0_19.index t (0 : Fin 2) = t.val ∧ win0_19.index t (1 : Fin 2) = 0 :=
  (by decide +kernel : ∀ t : Fin grid0.N, _)
theorem index_20 : ∀ t : Fin cfg0.N, win0_20.index t (0 : Fin 2) = t.val ∧ win0_20.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_10 : ∀ t : Fin cfg0.N, win0_10.index t (0 : Fin 2) = 0 ∧ win0_10.index t (1 : Fin 2) = 0 :=
  (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_12 : ∀ t : Fin cfg0.N, win0_12.index t (0 : Fin 2) = 0 ∧ win0_12.index t (1 : Fin 2) = 0 :=
  (by decide +kernel : ∀ t : Fin grid0.N, _)
theorem index_13 : ∀ t : Fin cfg0.N, win0_13.index t (0 : Fin 2) = 0 ∧ win0_13.index t (1 : Fin 2) = 0 :=
  (by decide +kernel : ∀ t : Fin grid0.N, _)
theorem index_14 : ∀ t : Fin cfg0.N, win0_14.index t (0 : Fin 2) = 0 ∧ win0_14.index t (1 : Fin 2) = 0 :=
  (by decide +kernel : ∀ t : Fin grid0.N, _)
theorem index_15 : ∀ t : Fin cfg0.N, win0_15.index t (0 : Fin 2) = 0 ∧ win0_15.index t (1 : Fin 2) = 0 :=
  (by decide +kernel : ∀ t : Fin grid0.N, _)
theorem index_16 : ∀ t : Fin cfg0.N, win0_16.index t (0 : Fin 2) = 0 ∧ win0_16.index t (1 : Fin 2) = 0 :=
  (by decide +kernel : ∀ t : Fin grid0.N, _)
theorem index_17 : ∀ t : Fin cfg0.N, win0_17.index t (0 : Fin 2) = 0 ∧ win0_17.index t (1 : Fin 2) = 0 :=
  (by decide +kernel : ∀ t : Fin grid0.N, _)
theorem index_18 : ∀ t : Fin cfg0.N, win0_18.index t (0 : Fin 2) = 0 ∧ win0_18.index t (1 : Fin 2) = 0 :=
  (by decide +kernel : ∀ t : Fin grid0.N, _)

/-- Row `p` of the block at point `t` is row `256 t + p` of the array. -/
def brow (t : Fin cfg0.N) (p : Fin 256) : Fin 16384 :=
  ⟨t.val * 256 + p.val, by have := t.isLt; have hN : cfg0.N = 64 := N_0; omega⟩

/-! ## The three batch blocks at a point -/

/-- The input rows' block: row `p` at point `t` is row `256 t + p` of the input. -/
theorem blk0_rows (c : Dev nD) (t : Fin cfg0.N) (p : Fin 256) :
    row (iblk m c 0 t : S256x1024.Idx → EReal) p = row (m ((c : Thread nD τ).loc main_arg0)) (brow t p) := by
  obtain ⟨e0, e1⟩ := index_0 t
  funext k
  show V m c main_arg0 (((cfg0.win 0).blk t).view.emb (ix2 p k)) = m ((c : Thread nD τ).loc main_arg0) (ix2 (brow t p) k)
  rw [V_main_arg0]
  refine congrArg (m ((c : Thread nD τ).loc main_arg0)) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- The hidden rows' block likewise. -/
theorem blk1_rows (c : Dev nD) (t : Fin cfg0.N) (p : Fin 256) :
    row (iblk m c 1 t : S256x1024.Idx → EReal) p = row (m ((c : Thread nD τ).loc main_arg1)) (brow t p) := by
  obtain ⟨e0, e1⟩ := index_1 t
  funext k
  show V m c main_arg1 (((cfg0.win 1).blk t).view.emb (ix2 p k)) = m ((c : Thread nD τ).loc main_arg1) (ix2 (brow t p) k)
  rw [V_main_arg1]
  refine congrArg (m ((c : Thread nD τ).loc main_arg1)) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The old cell state's block, entry by entry. -/
theorem blk2_entry (c : Dev nD) (t : Fin cfg0.N) (p : Fin 256) (q : Fin 1024) :
    (iblk m c 2 t : S256x1024.Idx → EReal) (ix2 p q) = m ((c : Thread nD τ).loc main_arg2) (ix2 (brow t p) q) := by
  obtain ⟨e0, e1⟩ := index_2 t
  show V m c main_arg2 (((cfg0.win 2).blk t).view.emb (ix2 p q)) = m ((c : Thread nD τ).loc main_arg2) (ix2 (brow t p) q)
  rw [V_main_arg2]
  refine congrArg (m ((c : Thread nD τ).loc main_arg2)) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

/-- An entry of either result's block at point `t` sits at row `256 t + p` of the result. -/
theorem emb19 (t : Fin cfg0.N) (p : Fin 256) (q : Fin 1024) :
    ((cfg0.win 19).blk t).view.emb (ix2 p q) = ix2 (brow t p) q := by
  obtain ⟨e0, e1⟩ := index_19 t
  funext a; apply Fin.ext
  match a with
  | ⟨0, _⟩ => show win0_19.index t (0 : Fin 2) * 256 + 1 * p.val = t.val * 256 + p.val; omega
  | ⟨1, _⟩ => show win0_19.index t (1 : Fin 2) * 1024 + 1 * q.val = q.val; omega
theorem emb20 (t : Fin cfg0.N) (p : Fin 256) (q : Fin 1024) :
    ((cfg0.win 20).blk t).view.emb (ix2 p q) = ix2 (brow t p) q := by
  obtain ⟨e0, e1⟩ := index_20 t
  funext a; apply Fin.ext
  match a with
  | ⟨0, _⟩ => show win0_20.index t (0 : Fin 2) * 256 + 1 * p.val = t.val * 256 + p.val; omega
  | ⟨1, _⟩ => show win0_20.index t (1 : Fin 2) * 1024 + 1 * q.val = q.val; omega

/-! ## The eight weight matrices: each window's one block is the argument itself -/

/-- Input-side weights of the input gate. -/
theorem blk3_rows (c : Dev nD) (t : Fin cfg0.N) (q : Fin 1024) :
    row (iblk m c 3 t : S1024x1024.Idx → EReal) q = row (m ((c : Thread nD τ).loc main_arg3)) q := by
  obtain ⟨e0, e1⟩ := index_3 t
  have hv : (V m c main_v0 : S1024x1024.Idx → EReal) = m ((c : Thread nD τ).loc main_arg3) := by
    dsimp only [V, hostOps0]; after_results; rfl
  funext k
  show (V m c main_v0 : S1024x1024.Idx → EReal) (((cfg0.win 3).blk t).view.emb (ix2 q k)) = m ((c : Thread nD τ).loc main_arg3) (ix2 q k)
  rw [hv]
  refine congrArg (m ((c : Thread nD τ).loc main_arg3)) (funext fun a => Fin.ext ?_)
  match a with
  | ⟨0, _⟩ => show win0_3.index t (0 : Fin 2) * 1024 + 1 * q.val = q.val; omega
  | ⟨1, _⟩ => show win0_3.index t (1 : Fin 2) * 1024 + 1 * k.val = k.val; omega

/-- Input-side weights of the output gate. -/
theorem blk4_rows (c : Dev nD) (t : Fin cfg0.N) (q : Fin 1024) :
    row (iblk m c 4 t : S1024x1024.Idx → EReal) q = row (m ((c : Thread nD τ).loc main_arg5)) q := by
  obtain ⟨e0, e1⟩ := index_4 t
  have hv : (V m c main_v1 : S1024x1024.Idx → EReal) = m ((c : Thread nD τ).loc main_arg5) := by
    dsimp only [V, hostOps0]; after_results; rfl
  funext k
  show (V m c main_v1 : S1024x1024.Idx → EReal) (((cfg0.win 4).blk t).view.emb (ix2 q k)) = m ((c : Thread nD τ).loc main_arg5) (ix2 q k)
  rw [hv]
  refine congrArg (m ((c : Thread nD τ).loc main_arg5)) (funext fun a => Fin.ext ?_)
  match a with
  | ⟨0, _⟩ => show win0_4.index t (0 : Fin 2) * 1024 + 1 * q.val = q.val; omega
  | ⟨1, _⟩ => show win0_4.index t (1 : Fin 2) * 1024 + 1 * k.val = k.val; omega

/-- Input-side weights of the forget gate. -/
theorem blk5_rows (c : Dev nD) (t : Fin cfg0.N) (q : Fin 1024) :
    row (iblk m c 5 t : S1024x1024.Idx → EReal) q = row (m ((c : Thread nD τ).loc main_arg7)) q := by
  obtain ⟨e0, e1⟩ := index_5 t
  have hv : (V m c main_v2 : S1024x1024.Idx → EReal) = m ((c : Thread nD τ).loc main_arg7) := by
    dsimp only [V, hostOps0]; after_results; rfl
  funext k
  show (V m c main_v2 : S1024x1024.Idx → EReal) (((cfg0.win 5).blk t).view.emb (ix2 q k)) = m ((c : Thread nD τ).loc main_arg7) (ix2 q k)
  rw [hv]
  refine congrArg (m ((c : Thread nD τ).loc main_arg7)) (funext fun a => Fin.ext ?_)
  match a with
  | ⟨0, _⟩ => show win0_5.index t (0 : Fin 2) * 1024 + 1 * q.val = q.val; omega
  | ⟨1, _⟩ => show win0_5.index t (1 : Fin 2) * 1024 + 1 * k.val = k.val; omega

/-- Input-side weights of the candidate. -/
theorem blk6_rows (c : Dev nD) (t : Fin cfg0.N) (q : Fin 1024) :
    row (iblk m c 6 t : S1024x1024.Idx → EReal) q = row (m ((c : Thread nD τ).loc main_arg9)) q := by
  obtain ⟨e0, e1⟩ := index_6 t
  have hv : (V m c main_v3 : S1024x1024.Idx → EReal) = m ((c : Thread nD τ).loc main_arg9) := by
    dsimp only [V, hostOps0]; after_results; rfl
  funext k
  show (V m c main_v3 : S1024x1024.Idx → EReal) (((cfg0.win 6).blk t).view.emb (ix2 q k)) = m ((c : Thread nD τ).loc main_arg9) (ix2 q k)
  rw [hv]
  refine congrArg (m ((c : Thread nD τ).loc main_arg9)) (funext fun a => Fin.ext ?_)
  match a with
  | ⟨0, _⟩ => show win0_6.index t (0 : Fin 2) * 1024 + 1 * q.val = q.val; omega
  | ⟨1, _⟩ => show win0_6.index t (1 : Fin 2) * 1024 + 1 * k.val = k.val; omega

/-- Hidden-side weights of the input gate. -/
theorem blk7_rows (c : Dev nD) (t : Fin cfg0.N) (q : Fin 1024) :
    row (iblk m c 7 t : S1024x1024.Idx → EReal) q = row (m ((c : Thread nD τ).loc main_arg11)) q := by
  obtain ⟨e0, e1⟩ := index_7 t
  have hv : (V m c main_v4 : S1024x1024.Idx → EReal) = m ((c : Thread nD τ).loc main_arg11) := by
    dsimp only [V, hostOps0]; after_results; rfl
  funext k
  show (V m c main_v4 : S1024x1024.Idx → EReal) (((cfg0.win 7).blk t).view.emb (ix2 q k)) = m ((c : Thread nD τ).loc main_arg11) (ix2 q k)
  rw [hv]
  refine congrArg (m ((c : Thread nD τ).loc main_arg11)) (funext fun a => Fin.ext ?_)
  match a with
  | ⟨0, _⟩ => show win0_7.index t (0 : Fin 2) * 1024 + 1 * q.val = q.val; omega
  | ⟨1, _⟩ => show win0_7.index t (1 : Fin 2) * 1024 + 1 * k.val = k.val; omega

/-- Hidden-side weights of the output gate. -/
theorem blk8_rows (c : Dev nD) (t : Fin cfg0.N) (q : Fin 1024) :
    row (iblk m c 8 t : S1024x1024.Idx → EReal) q = row (m ((c : Thread nD τ).loc main_arg13)) q := by
  obtain ⟨e0, e1⟩ := index_8 t
  have hv : (V m c main_v5 : S1024x1024.Idx → EReal) = m ((c : Thread nD τ).loc main_arg13) := by
    dsimp only [V, hostOps0]; after_results; rfl
  funext k
  show (V m c main_v5 : S1024x1024.Idx → EReal) (((cfg0.win 8).blk t).view.emb (ix2 q k)) = m ((c : Thread nD τ).loc main_arg13) (ix2 q k)
  rw [hv]
  refine congrArg (m ((c : Thread nD τ).loc main_arg13)) (funext fun a => Fin.ext ?_)
  match a with
  | ⟨0, _⟩ => show win0_8.index t (0 : Fin 2) * 1024 + 1 * q.val = q.val; omega
  | ⟨1, _⟩ => show win0_8.index t (1 : Fin 2) * 1024 + 1 * k.val = k.val; omega

/-- Hidden-side weights of the forget gate. -/
theorem blk9_rows (c : Dev nD) (t : Fin cfg0.N) (q : Fin 1024) :
    row (iblk m c 9 t : S1024x1024.Idx → EReal) q = row (m ((c : Thread nD τ).loc main_arg15)) q := by
  obtain ⟨e0, e1⟩ := index_9 t
  have hv : (V m c main_v6 : S1024x1024.Idx → EReal) = m ((c : Thread nD τ).loc main_arg15) := by
    dsimp only [V, hostOps0]; after_results; rfl
  funext k
  show (V m c main_v6 : S1024x1024.Idx → EReal) (((cfg0.win 9).blk t).view.emb (ix2 q k)) = m ((c : Thread nD τ).loc main_arg15) (ix2 q k)
  rw [hv]
  refine congrArg (m ((c : Thread nD τ).loc main_arg15)) (funext fun a => Fin.ext ?_)
  match a with
  | ⟨0, _⟩ => show win0_9.index t (0 : Fin 2) * 1024 + 1 * q.val = q.val; omega
  | ⟨1, _⟩ => show win0_9.index t (1 : Fin 2) * 1024 + 1 * k.val = k.val; omega

/-- Hidden-side weights of the candidate. -/
theorem blk10_rows (c : Dev nD) (t : Fin cfg0.N) (q : Fin 1024) :
    row (iblk m c 10 t : S1024x1024.Idx → EReal) q = row (m ((c : Thread nD τ).loc main_arg17)) q := by
  obtain ⟨e0, e1⟩ := index_10 t
  have hv : (V m c main_v7 : S1024x1024.Idx → EReal) = m ((c : Thread nD τ).loc main_arg17) := by
    dsimp only [V, hostOps0]; after_results; rfl
  funext k
  show (V m c main_v7 : S1024x1024.Idx → EReal) (((cfg0.win 10).blk t).view.emb (ix2 q k)) = m ((c : Thread nD τ).loc main_arg17) (ix2 q k)
  rw [hv]
  refine congrArg (m ((c : Thread nD τ).loc main_arg17)) (funext fun a => Fin.ext ?_)
  match a with
  | ⟨0, _⟩ => show win0_10.index t (0 : Fin 2) * 1024 + 1 * q.val = q.val; omega
  | ⟨1, _⟩ => show win0_10.index t (1 : Fin 2) * 1024 + 1 * k.val = k.val; omega

/-! ## The eight bias rows: each window's one block is the argument re-cast as one row -/

/-- Input-side bias of the input gate. -/
theorem blk11_entry (c : Dev nD) (t : Fin cfg0.N) (q : Fin 1024) :
    (iblk m c 11 t : S1x1024.Idx → EReal) (ix2 (0 : Fin 1) q) = m ((c : Thread nD τ).loc main_arg4) (ix1 q) := by
  obtain ⟨e0, e1⟩ := index_11 t
  have hv : (V m c main_v8 : S1x1024.Idx → EReal)
      = shapeCast S1x1024 (m ((c : Thread nD τ).loc main_arg4) : S1024.Idx → EReal) shapeCasts_S1024_S1x1024 := by
    dsimp only [V, hostOps0]; after_results; rfl
  have he : ((cfg0.win 11).blk t).view.emb (ix2 (0 : Fin 1) q) = ix2 (0 : Fin 1) q := funext fun a => Fin.ext (by
    match a with
    | ⟨0, _⟩ => show win0_11.index t (0 : Fin 2) * 1 + 1 * 0 = 0; omega
    | ⟨1, _⟩ => show win0_11.index t (1 : Fin 2) * 1024 + 1 * q.val = q.val; omega)
  show (V m c main_v8 : S1x1024.Idx → EReal) (((cfg0.win 11).blk t).view.emb (ix2 (0 : Fin 1) q)) = _
  rw [he, hv]
  exact shapeCast_a_1a_apply _ _ 0 q

/-- Input-side bias of the output gate. -/
theorem blk12_entry (c : Dev nD) (t : Fin cfg0.N) (q : Fin 1024) :
    (iblk m c 12 t : S1x1024.Idx → EReal) (ix2 (0 : Fin 1) q) = m ((c : Thread nD τ).loc main_arg6) (ix1 q) := by
  obtain ⟨e0, e1⟩ := index_12 t
  have hv : (V m c main_v9 : S1x1024.Idx → EReal)
      = shapeCast S1x1024 (m ((c : Thread nD τ).loc main_arg6) : S1024.Idx → EReal) shapeCasts_S1024_S1x1024 := by
    dsimp only [V, hostOps0]; after_results; rfl
  have he : ((cfg0.win 12).blk t).view.emb (ix2 (0 : Fin 1) q) = ix2 (0 : Fin 1) q := funext fun a => Fin.ext (by
    match a with
    | ⟨0, _⟩ => show win0_12.index t (0 : Fin 2) * 1 + 1 * 0 = 0; omega
    | ⟨1, _⟩ => show win0_12.index t (1 : Fin 2) * 1024 + 1 * q.val = q.val; omega)
  show (V m c main_v9 : S1x1024.Idx → EReal) (((cfg0.win 12).blk t).view.emb (ix2 (0 : Fin 1) q)) = _
  rw [he, hv]
  exact shapeCast_a_1a_apply _ _ 0 q

/-- Input-side bias of the forget gate. -/
theorem blk13_entry (c : Dev nD) (t : Fin cfg0.N) (q : Fin 1024) :
    (iblk m c 13 t : S1x1024.Idx → EReal) (ix2 (0 : Fin 1) q) = m ((c : Thread nD τ).loc main_arg8) (ix1 q) := by
  obtain ⟨e0, e1⟩ := index_13 t
  have hv : (V m c main_v10 : S1x1024.Idx → EReal)
      = shapeCast S1x1024 (m ((c : Thread nD τ).loc main_arg8) : S1024.Idx → EReal) shapeCasts_S1024_S1x1024 := by
    dsimp only [V, hostOps0]; after_results; rfl
  have he : ((cfg0.win 13).blk t).view.emb (ix2 (0 : Fin 1) q) = ix2 (0 : Fin 1) q := funext fun a => Fin.ext (by
    match a with
    | ⟨0, _⟩ => show win0_13.index t (0 : Fin 2) * 1 + 1 * 0 = 0; omega
    | ⟨1, _⟩ => show win0_13.index t (1 : Fin 2) * 1024 + 1 * q.val = q.val; omega)
  show (V m c main_v10 : S1x1024.Idx → EReal) (((cfg0.win 13).blk t).view.emb (ix2 (0 : Fin 1) q)) = _
  rw [he, hv]
  exact shapeCast_a_1a_apply _ _ 0 q

/-- Input-side bias of the candidate. -/
theorem blk14_entry (c : Dev nD) (t : Fin cfg0.N) (q : Fin 1024) :
    (iblk m c 14 t : S1x1024.Idx → EReal) (ix2 (0 : Fin 1) q) = m ((c : Thread nD τ).loc main_arg10) (ix1 q) := by
  obtain ⟨e0, e1⟩ := index_14 t
  have hv : (V m c main_v11 : S1x1024.Idx → EReal)
      = shapeCast S1x1024 (m ((c : Thread nD τ).loc main_arg10) : S1024.Idx → EReal) shapeCasts_S1024_S1x1024 := by
    dsimp only [V, hostOps0]; after_results; rfl
  have he : ((cfg0.win 14).blk t).view.emb (ix2 (0 : Fin 1) q) = ix2 (0 : Fin 1) q := funext fun a => Fin.ext (by
    match a with
    | ⟨0, _⟩ => show win0_14.index t (0 : Fin 2) * 1 + 1 * 0 = 0; omega
    | ⟨1, _⟩ => show win0_14.index t (1 : Fin 2) * 1024 + 1 * q.val = q.val; omega)
  show (V m c main_v11 : S1x1024.Idx → EReal) (((cfg0.win 14).blk t).view.emb (ix2 (0 : Fin 1) q)) = _
  rw [he, hv]
  exact shapeCast_a_1a_apply _ _ 0 q

/-- Hidden-side bias of the input gate. -/
theorem blk15_entry (c : Dev nD) (t : Fin cfg0.N) (q : Fin 1024) :
    (iblk m c 15 t : S1x1024.Idx → EReal) (ix2 (0 : Fin 1) q) = m ((c : Thread nD τ).loc main_arg12) (ix1 q) := by
  obtain ⟨e0, e1⟩ := index_15 t
  have hv : (V m c main_v12 : S1x1024.Idx → EReal)
      = shapeCast S1x1024 (m ((c : Thread nD τ).loc main_arg12) : S1024.Idx → EReal) shapeCasts_S1024_S1x1024 := by
    dsimp only [V, hostOps0]; after_results; rfl
  have he : ((cfg0.win 15).blk t).view.emb (ix2 (0 : Fin 1) q) = ix2 (0 : Fin 1) q := funext fun a => Fin.ext (by
    match a with
    | ⟨0, _⟩ => show win0_15.index t (0 : Fin 2) * 1 + 1 * 0 = 0; omega
    | ⟨1, _⟩ => show win0_15.index t (1 : Fin 2) * 1024 + 1 * q.val = q.val; omega)
  show (V m c main_v12 : S1x1024.Idx → EReal) (((cfg0.win 15).blk t).view.emb (ix2 (0 : Fin 1) q)) = _
  rw [he, hv]
  exact shapeCast_a_1a_apply _ _ 0 q

/-- Hidden-side bias of the output gate. -/
theorem blk16_entry (c : Dev nD) (t : Fin cfg0.N) (q : Fin 1024) :
    (iblk m c 16 t : S1x1024.Idx → EReal) (ix2 (0 : Fin 1) q) = m ((c : Thread nD τ).loc main_arg14) (ix1 q) := by
  obtain ⟨e0, e1⟩ := index_16 t
  have hv : (V m c main_v13 : S1x1024.Idx → EReal)
      = shapeCast S1x1024 (m ((c : Thread nD τ).loc main_arg14) : S1024.Idx → EReal) shapeCasts_S1024_S1x1024 := by
    dsimp only [V, hostOps0]; after_results; rfl
  have he : ((cfg0.win 16).blk t).view.emb (ix2 (0 : Fin 1) q) = ix2 (0 : Fin 1) q := funext fun a => Fin.ext (by
    match a with
    | ⟨0, _⟩ => show win0_16.index t (0 : Fin 2) * 1 + 1 * 0 = 0; omega
    | ⟨1, _⟩ => show win0_16.index t (1 : Fin 2) * 1024 + 1 * q.val = q.val; omega)
  show (V m c main_v13 : S1x1024.Idx → EReal) (((cfg0.win 16).blk t).view.emb (ix2 (0 : Fin 1) q)) = _
  rw [he, hv]
  exact shapeCast_a_1a_apply _ _ 0 q

/-- Hidden-side bias of the forget gate. -/
theorem blk17_entry (c : Dev nD) (t : Fin cfg0.N) (q : Fin 1024) :
    (iblk m c 17 t : S1x1024.Idx → EReal) (ix2 (0 : Fin 1) q) = m ((c : Thread nD τ).loc main_arg16) (ix1 q) := by
  obtain ⟨e0, e1⟩ := index_17 t
  have hv : (V m c main_v14 : S1x1024.Idx → EReal)
      = shapeCast S1x1024 (m ((c : Thread nD τ).loc main_arg16) : S1024.Idx → EReal) shapeCasts_S1024_S1x1024 := by
    dsimp only [V, hostOps0]; after_results; rfl
  have he : ((cfg0.win 17).blk t).view.emb (ix2 (0 : Fin 1) q) = ix2 (0 : Fin 1) q := funext fun a => Fin.ext (by
    match a with
    | ⟨0, _⟩ => show win0_17.index t (0 : Fin 2) * 1 + 1 * 0 = 0; omega
    | ⟨1, _⟩ => show win0_17.index t (1 : Fin 2) * 1024 + 1 * q.val = q.val; omega)
  show (V m c main_v14 : S1x1024.Idx → EReal) (((cfg0.win 17).blk t).view.emb (ix2 (0 : Fin 1) q)) = _
  rw [he, hv]
  exact shapeCast_a_1a_apply _ _ 0 q

/-- Hidden-side bias of the candidate. -/
theorem blk18_entry (c : Dev nD) (t : Fin cfg0.N) (q : Fin 1024) :
    (iblk m c 18 t : S1x1024.Idx → EReal) (ix2 (0 : Fin 1) q) = m ((c : Thread nD τ).loc main_arg18) (ix1 q) := by
  obtain ⟨e0, e1⟩ := index_18 t
  have hv : (V m c main_v15 : S1x1024.Idx → EReal)
      = shapeCast S1x1024 (m ((c : Thread nD τ).loc main_arg18) : S1024.Idx → EReal) shapeCasts_S1024_S1x1024 := by
    dsimp only [V, hostOps0]; after_results; rfl
  have he : ((cfg0.win 18).blk t).view.emb (ix2 (0 : Fin 1) q) = ix2 (0 : Fin 1) q := funext fun a => Fin.ext (by
    match a with
    | ⟨0, _⟩ => show win0_18.index t (0 : Fin 2) * 1 + 1 * 0 = 0; omega
    | ⟨1, _⟩ => show win0_18.index t (1 : Fin 2) * 1024 + 1 * q.val = q.val; omega)
  show (V m c main_v15 : S1x1024.Idx → EReal) (((cfg0.win 18).blk t).view.emb (ix2 (0 : Fin 1) q)) = _
  rw [he, hv]
  exact shapeCast_a_1a_apply _ _ 0 q

/-! ## What each point writes back, the cover, the two arrays -/

/-- The specification's new cell state of the arguments as launched on core `c`. -/
abbrev cellOf (c : Dev nD) : S16384x1024.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg15)) (m ((c : Thread nD τ).loc main_arg16)) (m ((c : Thread nD τ).loc main_arg17)) (m ((c : Thread nD τ).loc main_arg18))

/-- The specification's new hidden state of the arguments as launched on core `c`. -/
abbrev hiddenOf (c : Dev nD) : S16384x1024.Idx → EReal :=
  hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))

/-- Point `t` writes back block `t` of the specification's new cell state. -/
theorem flushed_cell (c : Dev nD) (t : Fin cfg0.N) :
    (dats m 0 c).flushed 20 t = ((cfg0.win 20).blk t).view.read (Elt Ideal) (cellOf m c) := by
  rw [Value.flushed20]
  funext j
  obtain ⟨p, q, rfl⟩ : ∃ (p : Fin 256) (q : Fin 1024), j = ix2 p q := ⟨j 0, j 1, eq_ix2 j⟩
  show out0_20 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (ix2 p q)
    = cellOf m c (((cfg0.win 20).blk t).view.emb (ix2 p q))
  rw [emb20]
  refine (out_cell (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) p q).trans ?_
  rw [blk0_rows m c t p, blk1_rows m c t p, blk2_entry m c t p q, blk3_rows m c t q, blk7_rows m c t q, blk11_entry m c t q,
    blk15_entry m c t q, blk5_rows m c t q, blk9_rows m c t q, blk13_entry m c t q, blk17_entry m c t q, blk6_rows m c t q,
    blk10_rows m c t q, blk14_entry m c t q, blk18_entry m c t q]
  rfl

/-- Point `t` writes back block `t` of the specification's new hidden state. -/
theorem flushed_hidden (c : Dev nD) (t : Fin cfg0.N) :
    (dats m 0 c).flushed 19 t = ((cfg0.win 19).blk t).view.read (Elt Ideal) (hiddenOf m c) := by
  rw [Value.flushed19]
  funext j
  obtain ⟨p, q, rfl⟩ : ∃ (p : Fin 256) (q : Fin 1024), j = ix2 p q := ⟨j 0, j 1, eq_ix2 j⟩
  show out0_19 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (ix2 p q)
    = hiddenOf m c (((cfg0.win 19).blk t).view.emb (ix2 p q))
  rw [emb19]
  refine (out_hidden (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) p q).trans ?_
  rw [blk0_rows m c t p, blk1_rows m c t p, blk2_entry m c t p q, blk3_rows m c t q, blk7_rows m c t q, blk11_entry m c t q,
    blk15_entry m c t q, blk4_rows m c t q, blk8_rows m c t q, blk12_entry m c t q, blk16_entry m c t q, blk5_rows m c t q,
    blk9_rows m c t q, blk13_entry m c t q, blk17_entry m c t q, blk6_rows m c t q, blk10_rows m c t q, blk14_entry m c t q,
    blk18_entry m c t q]
  rfl

/-- An index of a result array is in point `t`'s block iff its row is among that point's 256 (the columns are all there). -/
theorem mem_blk19 (t : Fin cfg0.N) (i : S16384x1024.Idx) :
    i ∈ ((cfg0.win 19).blk t).view.set ↔ ∀ a : Fin 2, win0_19.index t a * S256x1024.size a ≤ (i a).val ∧ (i a).val < win0_19.index t a * S256x1024.size a + S256x1024.size a := by
  show i ∈ ((View.whole main_v16_0).slice (win0_19.rect t)).set ↔ _
  rw [View.set_slice_whole, Rect.mem_set_unit]
  exact Iff.rfl
theorem mem_blk20 (t : Fin cfg0.N) (i : S16384x1024.Idx) :
    i ∈ ((cfg0.win 20).blk t).view.set ↔ ∀ a : Fin 2, win0_20.index t a * S256x1024.size a ≤ (i a).val ∧ (i a).val < win0_20.index t a * S256x1024.size a + S256x1024.size a := by
  show i ∈ ((View.whole main_v16_1).slice (win0_20.rect t)).set ↔ _
  rw [View.set_slice_whole, Rect.mem_set_unit]
  exact Iff.rfl

/-- Every row lies in the block of the point `row / 256`. -/
theorem cover19 (i : S16384x1024.Idx) : ∃ t : Fin cfg0.N, (cfg0.win 19).flush t = true ∧ i ∈ ((cfg0.win 19).blk t).view.set := by
  have hi0 : (i 0).val < 16384 := (i 0).isLt
  have hi1 : (i 1).val < 1024 := (i 1).isLt
  have hN : cfg0.N = 64 := N_0
  let t : Fin cfg0.N := ⟨(i 0).val / 256, by omega⟩
  obtain ⟨e0, e1⟩ := index_19 t
  have ht : t.val = (i 0).val / 256 := rfl
  refine ⟨t, flush0_19 t, ?_⟩
  rw [mem_blk19]
  intro a
  match a with
  | ⟨0, _⟩ => show win0_19.index t (0 : Fin 2) * 256 ≤ (i 0).val ∧ (i 0).val < win0_19.index t (0 : Fin 2) * 256 + 256; omega
  | ⟨1, _⟩ => show win0_19.index t (1 : Fin 2) * 1024 ≤ (i 1).val ∧ (i 1).val < win0_19.index t (1 : Fin 2) * 1024 + 1024; omega
theorem cover20 (i : S16384x1024.Idx) : ∃ t : Fin cfg0.N, (cfg0.win 20).flush t = true ∧ i ∈ ((cfg0.win 20).blk t).view.set := by
  have hi0 : (i 0).val < 16384 := (i 0).isLt
  have hi1 : (i 1).val < 1024 := (i 1).isLt
  have hN : cfg0.N = 64 := N_0
  let t : Fin cfg0.N := ⟨(i 0).val / 256, by omega⟩
  obtain ⟨e0, e1⟩ := index_20 t
  have ht : t.val = (i 0).val / 256 := rfl
  refine ⟨t, flush0_20 t, ?_⟩
  rw [mem_blk20]
  intro a
  match a with
  | ⟨0, _⟩ => show win0_20.index t (0 : Fin 2) * 256 ≤ (i 0).val ∧ (i 0).val < win0_20.index t (0 : Fin 2) * 256 + 256; omega
  | ⟨1, _⟩ => show win0_20.index t (1 : Fin 2) * 1024 ≤ (i 1).val ∧ (i 1).val < win0_20.index t (1 : Fin 2) * 1024 + 1024; omega

/-- After the run the hidden-state result is the specification's array. -/
theorem final_hidden (c : Dev nD) : (dats m 0 c).arrAt 19 cfg0.N = hiddenOf m c :=
  (dats m 0 c).arrAt_eq_of_cover 19 (hiddenOf m c) (fun t _ => flushed_hidden m c t) cover19

/-- After the run the cell-state result is the specification's array. -/
theorem final_cell (c : Dev nD) : (dats m 0 c).arrAt 20 cfg0.N = cellOf m c :=
  (dats m 0 c).arrAt_eq_of_cover 20 (cellOf m c) (fun t _ => flushed_cell m c t) cover20

end Cert.KernelIdeal.CellValue

end
-- ==== Proof.RefCell.lean ====
/-
  The reference's stages, read at one entry, are the cell's specification.

  The reference forms each gate's pre-activation left to right — (x·Wᵀ + b_W) + h·Uᵀ, then + b_U — with
  the weights transposed first and the contraction on the transposed matrix's first axis, so entry (i, j) of
  each product is again row i of the activations against row j of the (untransposed) weights. It spells the
  logistic function out as 1 / (1 + e^(−z)) with the constant 1.0, which on the extended reals is the logistic
  function itself. Re-associating the four terms of each pre-activation is the only algebra.
-/
import proofs.«173574_j9663676416791_1_alg».proof.Proof.Gen.ReferenceIdeal.Read
import proofs.«173574_j9663676416791_1_alg».proof.Proof.CellSpec

noncomputable section

namespace Cert.ReferenceIdeal.CellValue

open Cert.ReferenceIdeal Cert.ReferenceIdeal.Read Idealize.ShloMosaic Idealize.ShloMosaic.ValueIdx Cert.LstmCell

/-! ## Where each stage reads its operands -/

theorem lidx_eq (i : Fin 16384) (j k : Fin 1024) : lidx_main_v1 (ix2 i j) k = ix2 i k :=
  funext fun a => by match a with | ⟨0, _⟩ => rfl | ⟨1, _⟩ => rfl
theorem ridx_eq (i : Fin 16384) (j k : Fin 1024) : idx_main_v0 (ridx_main_v1 (ix2 i j) k) = ix2 j k :=
  funext fun a => by match a with | ⟨0, _⟩ => rfl | ⟨1, _⟩ => rfl
theorem bidx_eq (i : Fin 16384) (j : Fin 1024) : idx_main_v2 (idx_main_v3 (ix2 i j)) = ix1 j :=
  funext fun a => by match a with | ⟨0, _⟩ => rfl

/-- Entry (i, j) of `x · Wᵀ`: row i of `x` against row j of `W`. -/
theorem product_entry (x : (⟨S16384x1024, .f32⟩ : BufTy).Contents (Elt Ideal)) (w : (⟨S1024x1024, .f32⟩ : BufTy).Contents (Elt Ideal)) (i : Fin 16384) (j : Fin 1024) :
    val_main_v1 (F := Ideal) x w (ix2 i j) = rowDot (row x i) (row w j) := by
  rw [val_main_v1_apply]
  unfold rowDot row
  refine Finset.sum_congr rfl fun k _ => ?_
  rw [val_main_v0_apply, lidx_eq, ridx_eq]

/-- Entry (i, j) of a bias vector broadcast over the batch: the bias at j. -/
theorem bias_entry (b : (⟨S1024, .f32⟩ : BufTy).Contents (Elt Ideal)) (i : Fin 16384) (j : Fin 1024) :
    val_main_v3 (F := Ideal) b (ix2 i j) = b (ix1 j) := by
  rw [val_main_v3_apply, val_main_v2_apply, bidx_eq]

/-- A gate's pre-activation, read at an entry and re-associated. -/
theorem gate_entry (x h : (⟨S16384x1024, .f32⟩ : BufTy).Contents (Elt Ideal)) (w : (⟨S1024x1024, .f32⟩ : BufTy).Contents (Elt Ideal)) (bw : (⟨S1024, .f32⟩ : BufTy).Contents (Elt Ideal)) (u : (⟨S1024x1024, .f32⟩ : BufTy).Contents (Elt Ideal)) (bu : (⟨S1024, .f32⟩ : BufTy).Contents (Elt Ideal)) (i : Fin 16384) (j : Fin 1024) :
    val_main_v10 (F := Ideal) x h w bw u bu (ix2 i j)
      = gateSum (row x i) (row h i) (row w j) (row u j) (bw (ix1 j)) (bu (ix1 j)) := by
  rw [val_main_v10_apply, val_main_v7_apply, val_main_v4_apply]
  rw [show val_main_v6 (F := Ideal) h u = val_main_v1 (F := Ideal) h u from rfl,
    show val_main_v9 (F := Ideal) bu = val_main_v3 (F := Ideal) bu from rfl]
  rw [product_entry, product_entry, bias_entry, bias_entry]
  exact gateSum_of_left _ _ _ _ _ _

/-- The spelt-out logistic function of a gate's pre-activation. -/
theorem sigmoid_entry (x h : (⟨S16384x1024, .f32⟩ : BufTy).Contents (Elt Ideal)) (w : (⟨S1024x1024, .f32⟩ : BufTy).Contents (Elt Ideal)) (bw : (⟨S1024, .f32⟩ : BufTy).Contents (Elt Ideal)) (u : (⟨S1024x1024, .f32⟩ : BufTy).Contents (Elt Ideal)) (bu : (⟨S1024, .f32⟩ : BufTy).Contents (Elt Ideal)) (y : S16384x1024.Idx) :
    val_main_v16 (F := Ideal) x h w bw u bu y = Ideal.logistic (val_main_v10 (F := Ideal) x h w bw u bu y) := by
  rw [val_main_v16_apply, val_main_v15_apply, val_main_cst_0_apply, val_main_v14_apply, val_main_v13_apply, val_main_cst_apply,
    val_main_v12_apply, val_main_v11_apply]
  exact logistic_expanded _

/-! ## The two results -/

/-- The reference's new cell state is the specification's. -/
theorem cell_eq (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v64 (F := Ideal) x0 x1 x2 x3 x4 x7 x8 x9 x10 x11 x12 x15 x16 x17 x18
      = cellArr x0 x1 x2 x3 x4 x7 x8 x9 x10 x11 x12 x15 x16 x17 x18 := by
  funext y
  obtain ⟨i, j, rfl⟩ : ∃ (i : Fin 16384) (j : Fin 1024), y = ix2 i j := ⟨y 0, y 1, eq_ix2 y⟩
  rw [val_main_v64_apply, val_main_v62_apply, val_main_v63_apply]
  rw [show val_main_v50 (F := Ideal) x0 x1 x7 x8 x15 x16 = val_main_v16 (F := Ideal) x0 x1 x7 x8 x15 x16 from rfl,
    show val_main_v61 (F := Ideal) x0 x1 x9 x10 x17 x18 = val_main_v10 (F := Ideal) x0 x1 x9 x10 x17 x18 from rfl]
  rw [sigmoid_entry, sigmoid_entry, gate_entry, gate_entry, gate_entry]
  rfl

/-- The reference's new hidden state is the specification's. -/
theorem hidden_eq (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v66 (F := Ideal) x0 x1 x2 x3 x4 x5 x6 x7 x8 x9 x10 x11 x12 x13 x14 x15 x16 x17 x18
      = hiddenArr x0 x1 x2 x3 x4 x5 x6 x7 x8 x9 x10 x11 x12 x13 x14 x15 x16 x17 x18 := by
  funext y
  obtain ⟨i, j, rfl⟩ : ∃ (i : Fin 16384) (j : Fin 1024), y = ix2 i j := ⟨y 0, y 1, eq_ix2 y⟩
  rw [val_main_v66_apply, val_main_v65_apply, cell_eq]
  rw [show val_main_v33 (F := Ideal) x0 x1 x5 x6 x13 x14 = val_main_v16 (F := Ideal) x0 x1 x5 x6 x13 x14 from rfl]
  rw [sigmoid_entry, gate_entry]
  rfl

end Cert.ReferenceIdeal.CellValue

end
-- ==== Proof.lean ====
/-
  The certificate of one LSTM cell step: a Pallas kernel over a (16384, 1024) batch against its jnp reference.

  Both programs compute, for batch row i and hidden unit j,
      C'[i,j] = σ(f) · c[i,j] + σ(g_i) · g_c,      H'[i,j] = σ(o) · tanh C'[i,j],
  where each of the four pre-activations is  x[i,:]·W[j,:] + b_W[j] + h[i,:]·U[j,:] + b_U[j]  with its own
  weights, and return (H', H', C').

  * Proof/CellSpec.lean states this as two functions of the nineteen argument arrays over the extended reals.
  * The kernel walks the batch in 64 blocks of 256 rows with every weight matrix and bias row resident; it groups
    a pre-activation as (x·W + b_W) + (h·U + b_U) and uses the logistic function as one operation. Proof/KernelCell.lean
    reads its arithmetic at an entry of a block, Proof/KernelBlock.lean the two output buffers, Proof/KernelArray.lean
    the blocks at a grid point, the cover of the rows by the 64 blocks and so the two result arrays.
  * The reference sums a pre-activation left to right, transposes the weights before each product and spells the
    logistic function as 1 / (1 + e^(−z)). Proof/RefCell.lean reads its stages at an entry.
  The two sides meet in the specification; the only law between them is associativity of addition, which holds on
  all of the extended reals, so the precondition (every input finite) is never opened. Narrowing the matrix
  operands to a shorter float format is the identity on the extended reals. The idealization made no rewrite, so
  `preserves` is `True`. The three frames are the generated ones (the reference's is its generated run with the
  results dropped).
-/
import proofs.«173574_j9663676416791_1_alg».proof.Defs
import proofs.«173574_j9663676416791_1_alg».proof.Proof.Gen.Kernel
import proofs.«173574_j9663676416791_1_alg».proof.Proof.Gen.Kernel.Frame
import proofs.«173574_j9663676416791_1_alg».proof.Proof.Gen.KernelIdeal
import proofs.«173574_j9663676416791_1_alg».proof.Proof.Gen.KernelIdeal.Frame
import proofs.«173574_j9663676416791_1_alg».proof.Proof.Gen.KernelIdeal.Value
import proofs.«173574_j9663676416791_1_alg».proof.Proof.Gen.ReferenceIdeal
import proofs.«173574_j9663676416791_1_alg».proof.Proof.Gen.ReferenceIdeal.Run
import proofs.«173574_j9663676416791_1_alg».proof.Proof.Gen.ReferenceIdeal.Read
import proofs.«173574_j9663676416791_1_alg».proof.Proof.Gen.Pre_finite_inputs
import proofs.«173574_j9663676416791_1_alg».proof.Proof.KernelArray
import proofs.«173574_j9663676416791_1_alg».proof.Proof.RefCell
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Run from memories that agree on the nineteen arguments, both programs end with the hidden-state result
    (returned twice) at the specification's new hidden state and the cell-state result at its new cell state,
    of the kernel's arguments. -/
theorem algebraic : Cert.algebraic_KernelIdeal_ReferenceIdeal := by
  intro m ρ m' ρ' _ hagree
  refine ⟨fun c => Cert.KernelIdeal.CellValue.hiddenOf m c, fun c => Cert.KernelIdeal.CellValue.hiddenOf m c,
    fun c => Cert.KernelIdeal.CellValue.cellOf m c, ?_, ?_⟩
  · exact (θ_run Cert.KernelIdeal.defs _ _).mono (fun r h c =>
      ⟨(h c).1.trans (Cert.KernelIdeal.CellValue.final_hidden m c), (h c).1.trans (Cert.KernelIdeal.CellValue.final_hidden m c),
        (h c).2.1.trans (Cert.KernelIdeal.CellValue.final_cell m c), (h c).2.2⟩) (Cert.KernelIdeal.Value.run_blocks m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18⟩ := hagree c
    have eH := (Cert.ReferenceIdeal.CellValue.hidden_eq _ _ _ _ _ _ _ _ _ _ _ _ _ _ _ _ _ _ _).trans
      (Cert.LstmCell.hiddenArr_congr a0 a1 a2 a3 a4 a5 a6 a7 a8 a9 a10 a11 a12 a13 a14 a15 a16 a17 a18)
    have eC := (Cert.ReferenceIdeal.CellValue.cell_eq _ _ _ _ _ _ _ _ _ _ _ _ _ _ _).trans
      (Cert.LstmCell.cellArr_congr a0 a1 a2 a3 a4 a7 a8 a9 a10 a11 a12 a15 a16 a17 a18)
    exact ⟨(h c).1.trans ((Cert.ReferenceIdeal.Read.val_main_v66_eq _ _ _ _ _ _ _ _ _ _ _ _ _ _ _ _ _ _ _).trans eH),
      (h c).2.1.trans ((Cert.ReferenceIdeal.Read.val_main_v66_eq _ _ _ _ _ _ _ _ _ _ _ _ _ _ _ _ _ _ _).trans eH),
      (h c).2.2.1.trans ((Cert.ReferenceIdeal.Read.val_main_v64_eq _ _ _ _ _ _ _ _ _ _ _ _ _ _ _).trans eC), (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
